-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel

variable [Facts]

def fn {F : FTy → Type} [FloatOps F] (main_arg0 : FVec F S4096x4096 .f32) (main_arg1 : FVec F S4096x4096 .f32) (main_arg2 : FVec F S4096x4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  main_v13
-- ==== Kernel.lean ====
abbrev S4096x4096 : Shape := ⟨2, ![4096, 4096]⟩
abbrev S1x1 : Shape := ⟨2, ![1, 1]⟩
abbrev S256x4096 : Shape := ⟨2, ![256, 4096]⟩
abbrev S256 : Shape := ⟨1, ![256]⟩
abbrev S256x1 : Shape := ⟨2, ![256, 1]⟩
abbrev S1 : Shape := ⟨1, ![1]⟩
abbrev S_ : Shape := ⟨0, ![]⟩

abbrev nBuf : Space → Nat
  | .hbm => 5
  | .vmem => 8
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S1x1, .f32⟩
  | .hbm, ⟨4, _⟩ => ⟨S_, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S256x4096, .f32⟩
  | .local _ .vmem, ⟨5, _⟩ => ⟨S256x4096, .f32⟩
  | .local _ .vmem, ⟨6, _⟩ => ⟨S1x1, .f32⟩
  | .local _ .vmem, ⟨7, _⟩ => ⟨S1x1, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v28 : BitVec 1 := Scalar.cmpi .eq arg0 c15_i32
  let v29 : BitVec 32 := Scalar.extui v28
  let c0_i32_14 : BitVec 32 := 0#32
  let v30 : BitVec 1 := Scalar.cmpi .ne v29 c0_i32_14
  v30

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S256x4096_S256x4096_0_0 : ∀ a, (![0, 0] : Fin 2 → Nat) a + S256x4096.size a ≤ S256x4096.size a
  h_S256x4096 : 0 < S256x4096.numel
  reduces_S256x4096_S256 : S256x4096.Reduces [1] S256
  shapeCasts_S256_S256x1 : S256.ShapeCasts S256x1
  reduces_S256x1_S1 : S256x1.Reduces [0] S1
  shapeCasts_S1_S1x1 : S1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .f32 = 32 ∨ (Rect.block (s := S4096x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S4096x4096.size a
  hwx0_1 : ∀ i : grid0.Coords, EltTy.bits .f32 = 32 ∨ (Rect.block (s := S4096x4096) S256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S4096x4096.size a
  hwx0_2 : ∀ i : grid0.Coords, EltTy.bits .f32 = 32 ∨ (Rect.block (s := S4096x4096) S256x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S1x4096 : Shape := ⟨2, ![1, 4096]⟩

abbrev nBuf : Space → Nat
  | .hbm => 25
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S_, .f32⟩
  | .hbm, ⟨6, _⟩ => ⟨S4096, .f32⟩
  | .hbm, ⟨7, _⟩ => ⟨S4096, .f32⟩
  | .hbm, ⟨8, _⟩ => ⟨S4096x4096, .f32⟩
  | .hbm, ⟨9, _⟩ => ⟨S4096x4096, .f32⟩
  | .hbm, ⟨10, _⟩ => ⟨S_, .f32⟩
  | .hbm, ⟨11, _⟩ => ⟨S4096, .f32⟩
  | .hbm, ⟨12, _⟩ => ⟨S4096, .f32⟩
  | .hbm, ⟨13, _⟩ => ⟨S_, .f32⟩
  | .hbm, ⟨14, _⟩ => ⟨S4096, .f32⟩
  | .hbm, ⟨15, _⟩ => ⟨S4096, .f32⟩
  | .hbm, ⟨16, _⟩ => ⟨S4096, .f32⟩
  | .hbm, ⟨17, _⟩ => ⟨S_, .f32⟩
  | .hbm, ⟨18, _⟩ => ⟨S4096x1, .f32⟩
  | .hbm, ⟨19, _⟩ => ⟨S1x4096, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S_, .f32⟩
  | .hbm, ⟨24, _⟩ => ⟨S_, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩

abbrev nD : Nat := 1
abbrev τ : Topo := Topo.v7x

variable {F : FTy → Type} [FloatOps F]

class Facts₀ : Prop where
  reducesTo_S4096x4096_S4096_d1 : S4096x4096.ReducesTo [1] S4096
  h_S_ : 0 < S_.numel
  bcast_S_S4096 : S_.BroadcastsInDim S4096 (![] : Fin 0 → Fin S4096.rank)
  bcast_S_S4096x1 : S_.BroadcastsInDim S4096x1 (![] : Fin 0 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  reducesTo_S4096x4096_S_d0_1 : S4096x4096.ReducesTo [0, 1] S_

variable [Facts₀]

class Facts : Prop extends Facts₀ where

variable [Facts]
-- ==== Proof.Spec.lean ====
/-
  The triplet hinge loss as ONE function of the three argument arrays over the extended reals, and the two ways
  its sum is arranged.

  For sample `j` (a row of 4096 features) let `d13 j = sqrt (∑ₖ (a₀ j k − a₂ j k)²)` and `d12 j` likewise with `a₁`;
  the sample's term is `hinge j = max 0 ((2 − d13 j) + d12 j)`, and the loss is `(∑ⱼ hinge j) · 4096`.

  * Summed tile by tile: sixteen tiles of 256 consecutive rows, the tiles' sums added one after another to a
    running total that starts at zero (`runSum`), give `∑ⱼ hinge j` (`runSum_last`, `sum_tiles`): only the
    commutativity and associativity of `+` on the extended reals are used.
  * Summed over a 4096 × 4096 table whose entry `(i, j)` is `hinge j` whatever `i` is: every one of the 4096 rows
    of the table sums to `∑ⱼ hinge j`, and 4096 equal summands `x` add up to `4096 · x` on the extended reals,
    infinite `x` included (`sum_rows_const`). No finiteness of the inputs is needed anywhere.
-/
import Idealize.ShloMosaic.PureOps.Ideal
import Idealize.ShloMosaic.PureOps.Ideal.Laws
import Idealize.ShloMosaic.Lib.ValueIdx
import Mathlib.Data.EReal.Operations
import Mathlib.Algebra.BigOperators.Fin
import Mathlib.Logic.Equiv.Fin.Basic

noncomputable section

open scoped BigOperators

namespace Cert.RowHinge

open Idealize.ShloMosaic Idealize.ShloMosaic.ValueIdx

/-- An array of 4096 samples by 4096 features over the extended reals. -/
abbrev Arr : Type := (⟨2, ![4096, 4096]⟩ : Shape).Idx → EReal

/-- The squared Euclidean distance between two rows of 4096 features. -/
def sqDist (u v : Fin 4096 → EReal) : EReal := ∑ k : Fin 4096, (u k - v k) * (u k - v k)

/-- One sample's hinge term from its three rows: `max 0 ((2 − d13) + d12)`, the literal `2.0` kept as its word. -/
def rowHinge (u0 u1 u2 : Fin 4096 → EReal) : EReal :=
  max 0 (Ideal.ofBits .f32 0x40000000#32 - Ideal.sqrt (sqDist u0 u2) + Ideal.sqrt (sqDist u0 u1))

/-- Sample `j`'s hinge term: `rowHinge` of row `j` of the three arrays. -/
def hinge (a0 a1 a2 : Arr) (j : Fin 4096) : EReal :=
  rowHinge (fun k => a0 (ix2 j k)) (fun k => a1 (ix2 j k)) (fun k => a2 (ix2 j k))

/-- The loss: the samples' hinge terms summed, times the literal `4096.0` (kept as its word). -/
def loss (a0 a1 a2 : Arr) : EReal :=
  (∑ j : Fin 4096, hinge a0 a1 a2 j) * Ideal.ofBits .f32 0x45800000#32

/-! ## Tile by tile -/

/-- Row `r` of tile `t`: sample `r + 256 t`. -/
def tileRow (t : Fin 16) (r : Fin 256) : Fin 4096 :=
  ⟨r.val + 256 * t.val, by have := t.isLt; have := r.isLt; omega⟩

/-- The sum of a tile's 256 terms. -/
def tileSum (h : Fin 4096 → EReal) (t : Fin 16) : EReal := ∑ r : Fin 256, h (tileRow t r)

/-- The running total after tile `n`: zero plus the first tile's sum, then one tile's sum added per step. -/
def runSum (T : Fin 16 → EReal) : (n : ℕ) → n < 16 → EReal
  | 0, h => 0 + T ⟨0, h⟩
  | n + 1, h => runSum T n (Nat.lt_of_succ_lt h) + T ⟨n + 1, h⟩

/-- The running total after tile `n` is the sum of the tiles up to `n`. -/
theorem runSum_eq (T : Fin 16 → EReal) :
    ∀ (n : ℕ) (h : n < 16), runSum T n h = ∑ i : Fin (n + 1), T ⟨i.val, lt_of_lt_of_le i.isLt h⟩
  | 0, h => by
    rw [runSum, zero_add, Fin.sum_univ_one]
    rfl
  | n + 1, h => by
    rw [runSum, runSum_eq T n (Nat.lt_of_succ_lt h), Fin.sum_univ_castSucc (n := n + 1)]
    rfl

/-- After the last tile it is the sum of all sixteen. -/
theorem runSum_last (T : Fin 16 → EReal) : runSum T 15 (by decide) = ∑ t : Fin 16, T t :=
  runSum_eq T 15 (by decide)

/-- The sixteen tiles of 256 rows are the 4096 samples, each once. -/
theorem sum_tiles (h : Fin 4096 → EReal) : ∑ t : Fin 16, tileSum h t = ∑ j : Fin 4096, h j := by
  have e := Equiv.sum_comp (finProdFinEquiv (m := 16) (n := 256)) h
  rw [Fintype.sum_prod_type] at e
  exact e

/-! ## A table of equal rows -/

/-- A sum over an `n₀ × n₁` table whose entry depends on the column only is `n₀` times one row's sum: `n₀` equal
    summands `x` add up to `n₀ · x` on the extended reals, whatever `x` is. -/
theorem sum_rows_const {n0 n1 : ℕ} (f : Fin n1 → EReal) :
    ∑ i : (⟨2, ![n0, n1]⟩ : Shape).Idx, f (i 1) = (∑ b : Fin n1, f b) * (n0 : EReal) := by
  rw [sum_idx2]
  show ∑ _a : Fin n0, ∑ b : Fin n1, f b = _
  rw [Finset.sum_const, Finset.card_univ, Fintype.card_fin, EReal.nsmul_eq_mul, mul_comm]

/-- The word of `4096.0` denotes the number of rows of the table. -/
theorem word_4096 : Ideal.ofBits .f32 0x45800000#32 = ((4096 : ℕ) : EReal) := by
  have e : Ideal.ofBits .f32 0x45800000#32 = ((4096 : ℝ) : EReal) := by
    simp [Ideal.ofBits, Ideal.ieee, -EReal.coe_mul]; norm_num
  rw [e]
  norm_cast

/-- The table's sum is the loss. -/
theorem table_sum_eq_loss (a0 a1 a2 : Arr) :
    ∑ i : (⟨2, ![4096, 4096]⟩ : Shape).Idx, hinge a0 a1 a2 (i 1) = loss a0 a1 a2 := by
  rw [sum_rows_const (n0 := 4096) (hinge a0 a1 a2), loss, word_4096]

/-- The running total over the tiles, times `4096.0`, is the loss. -/
theorem tiles_eq_loss (a0 a1 a2 : Arr) :
    runSum (tileSum (hinge a0 a1 a2)) 15 (by decide) * Ideal.ofBits .f32 0x45800000#32 = loss a0 a1 a2 := by
  rw [runSum_last, sum_tiles, loss]

end Cert.RowHinge

end
-- ==== Proof.Reference.lean ====
/-
  The reference computes the loss. Its program builds, for every sample `j`, `compare j = (2 − d13 j) + d12 j` with
  `d13 j`, `d12 j` the square roots of the row sums of squared differences; lays `compare` along the columns of a
  4096 × 4096 table and a zero along its rows; takes the entrywise maximum, so that entry `(i, j)` is `max 0 (compare j)`
  whatever `i` is; and sums the whole table from zero. The table's sum is the loss (Spec: 4096 equal rows).
-/
import proofs.«121912_j26482768347185_1_alg».proof.Proof.Gen.ReferenceIdeal.Run
import proofs.«121912_j26482768347185_1_alg».proof.Proof.Gen.ReferenceIdeal.Read
import proofs.«121912_j26482768347185_1_alg».proof.Proof.Spec
import Idealize.ShloMosaic.Lib.ValueIdx
import Idealize.ShloMosaic.PureOps.Ideal.Laws

noncomputable section

open Idealize.ShloMosaic Idealize.ShloMosaic.TcCoe Idealize.SL.Sem

namespace Cert.ReferenceIdeal.Table

open Cert.ReferenceIdeal Cert.ReferenceIdeal.Gen Cert.ReferenceIdeal.Read Cert.RowHinge Idealize.ShloMosaic.ValueIdx

/-- The entry the first row sum reads for table entry `i` and feature `k`: sample `i 1`, feature `k`. -/
theorem row_of_entry_13 (i : S4096x4096.Idx) (k : Fin 4096) :
    idx_main_v2 (idx_main_v12 (idx_main_v14 i)) k = ix2 (i 1) k :=
  funext fun a => by
    match a with
    | ⟨0, _⟩ => rfl
    | ⟨1, _⟩ => rfl

/-- The same for the second row sum. -/
theorem row_of_entry_12 (i : S4096x4096.Idx) (k : Fin 4096) :
    idx_main_v6 (idx_main_v12 (idx_main_v14 i)) k = ix2 (i 1) k :=
  funext fun a => by
    match a with
    | ⟨0, _⟩ => rfl
    | ⟨1, _⟩ => rfl

/-- Entry `(i, j)` of the table is sample `j`'s hinge term. -/
theorem entry_eq (x0 x1 x2 : (⟨S4096x4096, .f32⟩ : BufTy).Contents (Elt Ideal)) (i : S4096x4096.Idx) :
    val_main_v15 (F := Ideal) x0 x1 x2 i = hinge x0 x1 x2 (i 1) := by
  rw [val_main_v15_apply, val_main_v13_apply, val_main_v11_apply, val_main_cst_2_apply, val_main_v14_apply,
    val_main_v12_apply, val_main_v10_apply, val_main_v9_apply, val_main_v8_apply, val_main_cst_1_apply,
    val_main_v3_apply, val_main_v2_apply, val_main_cst_apply, val_main_v7_apply, val_main_v6_apply,
    val_main_cst_0_apply]
  simp only [val_main_v1_apply, val_main_v0_apply, val_main_v5_apply, val_main_v4_apply, row_of_entry_13,
    row_of_entry_12, Ideal.subf_def, Ideal.mulf_def, Ideal.addf_def, Ideal.maximumf_def, Ideal.hostUnary_sqrt_def,
    Ideal.ofBits_def, Ideal.ofBits_zero_f32, zero_add]
  rfl

/-- The reference's result, at its one index, is the loss. -/
theorem result_eq (x0 x1 x2 : (⟨S4096x4096, .f32⟩ : BufTy).Contents (Elt Ideal)) (i : S_.Idx) :
    val_main_v16 (F := Ideal) x0 x1 x2 i = loss x0 x1 x2 := by
  rw [val_main_v16_apply, val_main_cst_3_apply]
  simp only [Ideal.ofBits_def, Ideal.ofBits_zero_f32, zero_add]
  rw [Finset.sum_congr rfl fun j _ => entry_eq x0 x1 x2 j]
  exact table_sum_eq_loss x0 x1 x2

end Cert.ReferenceIdeal.Table

end
-- ==== Proof.Pieces.lean ====
/-
  What one grid point leaves behind, read as values. The body keeps a 1 × 1 running total in a scratch cell that lives
  across the sixteen grid points, and writes the 1 × 1 result only at the last point. Its three control cases are

    first point     the total is reset to zero, then the tile's contribution is added to it;
    middle points   the tile's contribution is added to the total the point before left;
    last point      the same, and then the result cell receives the new total times 4096.

  In each case the cell's final contents are those of its last covering store, whose value is a pure function of the
  three input tiles and of the total before it (the update) or of the total after it (the result).
-/
import proofs.«121912_j26482768347185_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

/-- Every store and load of the body is at offset (0, 0). -/
theorem offsets_zero : (![0, 0] : Fin 2 → Nat) = fun _ => 0 := funext fun a => by fin_cases a <;> rfl

/-- First point: the running total ends at the update applied to the three tiles and the freshly stored zero. -/
theorem total_first (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S256x4096 .f32) (harg3 : arg3.IsWhole) (arg4 : Memref sig .tc .vmem S1x1 .f32) (harg4 : arg4.IsWhole) (arg5 : Memref sig .tc .vmem S1x1 .f32) (harg5 : arg5.IsWhole) (hc0 : cond0_0 i) (hc1 : ¬cond0_1 i)
    (x0 : Vec F S256x4096 .f32) (x1 : Vec F S256x4096 .f32) (x2 : Vec F S256x4096 .f32) :
    sout0_A_0 c i arg1 harg1 arg2 harg2 arg3 harg3 arg4 harg4 arg5 harg5 hc0 hc1 x0 x1 x2 = k0_pay2 x0 x1 x2 k0_pay1 := by
  unfold sout0_A_0
  rw [View.read_writes_eq_canon _ _ _ (scover0_A_0 c i arg1 harg1 arg2 harg2 arg3 harg3 arg4 harg4 arg5 harg5 hc0 hc1 x0 x1 x2)]
  unfold kernelRun0_A
  dsimp only
  sl_unfold_words
  rw [View.canon_cons_unit_zero (S := S1x1) offsets_zero]
  simp only [View.readAt_eq_ld, harg1.read_unread, harg2.read_unread, harg3.read_unread,
    View.ld_unit_zero (S := S256x4096) offsets_zero, View.readCov_unit_zero (S := S1x1) _ offsets_zero]

/-- Middle points: the running total ends at the update applied to the three tiles and the total before. -/
theorem total_middle (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S256x4096 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : ¬cond0_1 i)
    (x0 : Vec F S256x4096 .f32) (x1 : Vec F S256x4096 .f32) (x2 : Vec F S256x4096 .f32) (xs0 : Vec F S1x1 .f32) :
    sout0_B_0 c i arg1 harg1 arg2 harg2 arg3 harg3 arg4 harg4 arg5 harg5 hc0 hc1 x0 x1 x2 xs0 = k0_pay2 x0 x1 x2 xs0 := by
  unfold sout0_B_0
  rw [View.read_writes_eq_canon _ _ _ (scover0_B_0 c i arg1 harg1 arg2 harg2 arg3 harg3 arg4 harg4 arg5 harg5 hc0 hc1 x0 x1 x2 xs0)]
  unfold kernelRun0_B
  dsimp only
  sl_unfold_words
  rw [View.canon_unit_zero offsets_zero]
  simp only [View.readAt_eq_ld, harg1.read_unread, harg2.read_unread, harg3.read_unread, harg5.read_unread,
    View.ld_unit_zero (S := S256x4096) offsets_zero, View.ld_unit_zero (S := S1x1) offsets_zero]

/-- Last point: the running total, as at a middle point. -/
theorem total_last (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S256x4096 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 : Vec F S256x4096 .f32) (x1 : Vec F S256x4096 .f32) (x2 : Vec F S256x4096 .f32) (xs0 : Vec F S1x1 .f32) :
    sout0_C_0 c i arg1 harg1 arg2 harg2 arg3 harg3 arg4 harg4 arg5 harg5 hc0 hc1 x0 x1 x2 xs0 = k0_pay2 x0 x1 x2 xs0 := by
  unfold sout0_C_0
  rw [View.read_writes_eq_canon _ _ _ (scover0_C_0 c i arg1 harg1 arg2 harg2 arg3 harg3 arg4 harg4 arg5 harg5 hc0 hc1 x0 x1 x2 xs0)]
  unfold kernelRun0_C
  dsimp only
  sl_unfold_words
  rw [View.canon_unit_zero offsets_zero]
  simp only [View.readAt_eq_ld, harg1.read_unread, harg2.read_unread, harg3.read_unread, harg5.read_unread,
    View.ld_unit_zero (S := S256x4096) offsets_zero, View.ld_unit_zero (S := S1x1) offsets_zero]

/-- Last point: the result cell receives the scaling applied to the new total, which the body reads back from the
    scratch cell after storing it. -/
theorem result_last (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S256x4096 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 : Vec F S256x4096 .f32) (x1 : Vec F S256x4096 .f32) (x2 : Vec F S256x4096 .f32) (xs0 : Vec F S1x1 .f32) :
    out0_C_3 c i arg1 harg1 arg2 harg2 arg3 harg3 arg4 harg4 arg5 harg5 hc0 hc1 x0 x1 x2 xs0 = k0_pay3 (k0_pay2 x0 x1 x2 xs0) := by
  unfold out0_C_3
  rw [View.read_writes_eq_canon _ _ _ (cover0_C_3 c i arg1 harg1 arg2 harg2 arg3 harg3 arg4 harg4 arg5 harg5 hc0 hc1 x0 x1 x2 xs0)]
  unfold kernelRun0_C
  dsimp only
  sl_unfold_words
  rw [View.canon_unit_zero offsets_zero]
  simp only [View.readAt_eq_ld, harg1.read_unread, harg2.read_unread, harg3.read_unread, harg5.read_unread,
    View.ld_unit_zero (S := S256x4096) offsets_zero, View.ld_unit_zero (S := S1x1) offsets_zero,
    View.readCov_unit_zero (S := S1x1) _ offsets_zero]

end Cert.KernelIdeal.Pieces

end
-- ==== Proof.TileValue.lean ====
/-
  One tile's contribution, at the ideal instance. The update the body applies to the running total is

      total + ∑ᵣ max 0 ((2 − sqrt (∑ₖ (x₀ r k − x₂ r k)²)) + sqrt (∑ₖ (x₀ r k − x₁ r k)²))

  over the 256 rows `r` of the three 256 × 4096 tiles: a lane sum per row (twice), a square root of each, the hinge,
  and a sum down the resulting column. Every operation in between is pointwise, so reading the update at the cell's
  one index leaves only the three sums and the re-laid column to open. The result is the total times the word of 4096.0.
-/
import proofs.«121912_j26482768347185_1_alg».proof.Proof.Gen.KernelIdeal.Frame
import proofs.«121912_j26482768347185_1_alg».proof.Proof.Spec
import Idealize.ShloMosaic.Lib.ValueIdx
import Idealize.ShloMosaic.Lib.ValueLayout
import Idealize.ShloMosaic.PureOps.Ideal.Laws
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.TileValue

open Cert.KernelIdeal Cert.KernelIdeal.Gen Cert.RowHinge Idealize.ShloMosaic.ValueIdx

/-- A square root of a vector, at an index. -/
theorem sqrt_apply {s : Shape} (v : FVec Ideal s .f32) (i : s.Idx) : sqrt v i = Ideal.sqrt (v i) := rfl

/-- A vector of 256 entries laid out as a 256 × 1 column reads, at row `r`, entry `r`. -/
theorem column_apply (v : FVec Ideal S256 .f32) (h : S256.ShapeCasts S256x1) (r : Fin 256) (u : Fin 1) :
    shapeCast S256x1 v h (ix2 r u) = v (ix1 r) :=
  shapeCast_apply v h _ _ (by
    have hu : u.val = 0 := by omega
    rw [Shape.rowMajor_val_two, Shape.rowMajor_val_one]
    show r.val = r.val * 1 + u.val
    omega)

/-- The lane sum of a 256 × 4096 tile, at row `r`: the sum of the row's 4096 entries. -/
theorem rowSum_apply (v : FVec Ideal S256x4096 .f32) (h : S256x4096.Reduces [1] S256) (r : Fin 256) :
    multiReduction (F := Ideal) .add [1] S256 v 0x00000000#32 h (.inl rfl) rfl (ix1 r) = ∑ k : Fin 4096, v (ix2 r k) := by
  refine (Ideal.multiReduction_add_single v 0x00000000#32 h (.inl rfl) rfl (ix1 r)).trans ?_
  exact Finset.sum_congr rfl fun k _ => congrArg v (funext fun a => Fin.ext (by
    match a with
    | ⟨0, _⟩ => rfl
    | ⟨1, _⟩ => rfl))

/-- The sum down a 256 × 1 column: the sum of its 256 entries. -/
theorem colSum_apply (v : FVec Ideal S256x1 .f32) (h : S256x1.Reduces [0] S1) (w : Fin 1) :
    multiReduction (F := Ideal) .add [0] S1 v 0x00000000#32 h (.inl rfl) rfl (ix1 w) = ∑ r : Fin 256, v (ix2 r w) := by
  refine (Ideal.multiReduction_add_single v 0x00000000#32 h (.inl rfl) rfl (ix1 w)).trans ?_
  exact Finset.sum_congr rfl fun r _ => congrArg v (funext fun a => Fin.ext (by
    match a with
    | ⟨0, _⟩ => rfl
    | ⟨1, _⟩ => rfl))

/-- The tile's contribution: the hinge terms of its 256 rows, summed. -/
def contribution (x0 x1 x2 : Vec Ideal S256x4096 .f32) : EReal :=
  ∑ r : Fin 256, rowHinge (fun k => x0 (ix2 r k)) (fun k => x1 (ix2 r k)) (fun k => x2 (ix2 r k))

/-- The update, read at the cell: the total before plus the tile's contribution. -/
theorem update_apply (x0 x1 x2 : Vec Ideal S256x4096 .f32) (total : Vec Ideal S1x1 .f32) (u w : Fin 1) :
    k0_pay2 (F := Ideal) x0 x1 x2 total (ix2 u w) = total (ix2 u w) + contribution x0 x1 x2 := by
  unfold k0_pay2 contribution
  rw [shapeCast_self, addf_apply, shapeCast_a_1a_apply, colSum_apply]
  refine congrArg (total (ix2 u w) + ·) (Finset.sum_congr rfl fun r _ => ?_)
  rw [maximumf_apply, addf_apply, subf_apply, sqrt_apply, sqrt_apply, column_apply, column_apply, rowSum_apply,
    rowSum_apply]
  show max (Ideal.ofBits .f32 0x00000000#32) _ = _
  rw [Ideal.ofBits_zero_f32]
  rfl

/-- The reset stores zero. -/
theorem reset_apply (i : S1x1.Idx) : k0_pay1 (F := Ideal) i = 0 := by
  unfold k0_pay1
  rw [shapeCast_self]
  exact Ideal.ofBits_zero_f32

/-- The result, read at the cell: the total times the word of 4096.0. -/
theorem scale_apply (total : Vec Ideal S1x1 .f32) (i : S1x1.Idx) :
    k0_pay3 (F := Ideal) total i = total i * Ideal.ofBits .f32 0x45800000#32 := rfl

end Cert.KernelIdeal.TileValue

end
-- ==== Proof.RunningTotal.lean ====
/-
  The running total across the grid, at the ideal instance. Point `t` of the grid is handed rows `256 t … 256 t + 255` of
  each of the three arrays (its tiles), so its contribution is the sum of those samples' hinge terms; the scratch cell
  after point `n` therefore holds zero plus the contributions of points `0 … n` added in order (induction on the point,
  one step per control case), and at the last point the result cell receives that total times 4096: the loss.
-/
import proofs.«121912_j26482768347185_1_alg».proof.Proof.Gen.KernelIdeal.Frame
import proofs.«121912_j26482768347185_1_alg».proof.Proof.Spec
import proofs.«121912_j26482768347185_1_alg».proof.Proof.Pieces
import proofs.«121912_j26482768347185_1_alg».proof.Proof.TileValue
import Idealize.ShloMosaic.Lib.ValueIdx
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Total

open Cert.KernelIdeal Cert.KernelIdeal.Gen Cert.RowHinge Idealize.ShloMosaic.ValueIdx
open Cert.KernelIdeal.Pieces Cert.KernelIdeal.TileValue

variable (m : (ℓ : Loc nD τ sig) → Buf (Elt Ideal) ℓ)

/-- The three argument arrays as the region finds them on core `c`. -/
abbrev arr0 (c : Dev nD) : Vec Ideal S4096x4096 .f32 := V m c main_arg0
abbrev arr1 (c : Dev nD) : Vec Ideal S4096x4096 .f32 := V m c main_arg1
abbrev arr2 (c : Dev nD) : Vec Ideal S4096x4096 .f32 := V m c main_arg2

/-- The three tiles the body is handed at point `t`. -/
abbrev tile0 (c : Dev nD) (t : Fin cfg0.N) : Vec Ideal S256x4096 .f32 := iblk m c 0 t
abbrev tile1 (c : Dev nD) (t : Fin cfg0.N) : Vec Ideal S256x4096 .f32 := iblk m c 1 t
abbrev tile2 (c : Dev nD) (t : Fin cfg0.N) : Vec Ideal S256x4096 .f32 := iblk m c 2 t

/-- A grid point as a tile number. -/
def tileNo (t : Fin cfg0.N) : Fin 16 := ⟨t.val, lt_of_lt_of_eq t.isLt N_0⟩

/-- Where the windows' blocks sit: block `t` of each input is block row `t`, block column 0 (decided over the grid). -/
theorem origin0 : ∀ t : Fin cfg0.N, win0_0.index t 0 = t.val ∧ win0_0.index t 1 = 0 :=
  (by decide +kernel : ∀ t : Fin grid0.N, win0_0.index t 0 = t.val ∧ win0_0.index t 1 = 0)
theorem origin1 : ∀ t : Fin cfg0.N, win0_1.index t 0 = t.val ∧ win0_1.index t 1 = 0 :=
  (by decide +kernel : ∀ t : Fin grid0.N, win0_1.index t 0 = t.val ∧ win0_1.index t 1 = 0)
theorem origin2 : ∀ t : Fin cfg0.N, win0_2.index t 0 = t.val ∧ win0_2.index t 1 = 0 :=
  (by decide +kernel : ∀ t : Fin grid0.N, win0_2.index t 0 = t.val ∧ win0_2.index t 1 = 0)

/-- Entry `(r, k)` of the first array's tile at point `t` is entry `(r + 256 t, k)` of the array. -/
theorem tile0_apply (c : Dev nD) (t : Fin cfg0.N) (r : Fin 256) (k : Fin 4096) :
    tile0 m c t (ix2 r k) = arr0 m c (ix2 (tileRow (tileNo t) r) k) := by
  show iblk m c 0 t (ix2 r k) = V m c main_arg0 _
  unfold iblk
  rw [View.read_apply]
  show V m c main_arg0 _ = V m c main_arg0 _
  congr 1
  funext a
  apply Fin.ext
  match a with
  | ⟨0, _⟩ => show win0_0.index t 0 * 256 + 1 * r.val = r.val + 256 * t.val; rw [(origin0 t).1]; omega
  | ⟨1, _⟩ => show win0_0.index t 1 * 4096 + 1 * k.val = k.val; rw [(origin0 t).2]; omega

/-- The same for the second array. -/
theorem tile1_apply (c : Dev nD) (t : Fin cfg0.N) (r : Fin 256) (k : Fin 4096) :
    tile1 m c t (ix2 r k) = arr1 m c (ix2 (tileRow (tileNo t) r) k) := by
  show iblk m c 1 t (ix2 r k) = V m c main_arg1 _
  unfold iblk
  rw [View.read_apply]
  show V m c main_arg1 _ = V m c main_arg1 _
  congr 1
  funext a
  apply Fin.ext
  match a with
  | ⟨0, _⟩ => show win0_1.index t 0 * 256 + 1 * r.val = r.val + 256 * t.val; rw [(origin1 t).1]; omega
  | ⟨1, _⟩ => show win0_1.index t 1 * 4096 + 1 * k.val = k.val; rw [(origin1 t).2]; omega

/-- The same for the third array. -/
theorem tile2_apply (c : Dev nD) (t : Fin cfg0.N) (r : Fin 256) (k : Fin 4096) :
    tile2 m c t (ix2 r k) = arr2 m c (ix2 (tileRow (tileNo t) r) k) := by
  show iblk m c 2 t (ix2 r k) = V m c main_arg2 _
  unfold iblk
  rw [View.read_apply]
  show V m c main_arg2 _ = V m c main_arg2 _
  congr 1
  funext a
  apply Fin.ext
  match a with
  | ⟨0, _⟩ => show win0_2.index t 0 * 256 + 1 * r.val = r.val + 256 * t.val; rw [(origin2 t).1]; omega
  | ⟨1, _⟩ => show win0_2.index t 1 * 4096 + 1 * k.val = k.val; rw [(origin2 t).2]; omega

/-- The samples' hinge terms for core `c`'s arrays. -/
abbrev terms (c : Dev nD) : Fin 4096 → EReal := hinge (arr0 m c) (arr1 m c) (arr2 m c)

/-- Point `t`'s contribution is the sum of the hinge terms of tile `t`'s 256 samples. -/
theorem contribution_eq (c : Dev nD) (t : Fin cfg0.N) :
    contribution (tile0 m c t) (tile1 m c t) (tile2 m c t) = tileSum (terms m c) (tileNo t) := by
  unfold contribution tileSum
  refine Finset.sum_congr rfl fun r _ => ?_
  exact congr (congr (congrArg rowHinge (funext fun k => tile0_apply m c t r k)) (funext fun k => tile1_apply m c t r k))
    (funext fun k => tile2_apply m c t r k)

/-- THE RUNNING TOTAL: after point `n` the scratch cell holds zero plus the contributions of tiles `0 … n`, added in
    order. -/
theorem total_after (c : Dev nD) : ∀ (n : ℕ) (hn : n < cfg0.N) (i : S1x1.Idx),
    (outsAt0 m c n hn).2 i = runSum (tileSum (terms m c)) n (lt_of_lt_of_eq hn N_0)
  | 0, hn, i => by
    obtain ⟨u, w, rfl⟩ : ∃ (u w : Fin 1), i = ix2 u w := ⟨i 0, i 1, eq_ix2 i⟩
    rw [outsAt0_A m c ⟨0, hn⟩ (Nat.zero_mod _) (by show ¬(0 % 16 = 15); decide)]
    dsimp only
    refine (congrFun (total_first (F := Ideal) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) _ _ (iblk m c 0 ⟨0, hn⟩) (iblk m c 1 ⟨0, hn⟩) (iblk m c 2 ⟨0, hn⟩)) (ix2 u w)).trans ?_
    rw [update_apply, reset_apply, runSum]
    exact congrArg (0 + ·) (contribution_eq m c ⟨0, hn⟩)
  | n + 1, hn, i => by
    obtain ⟨u, w, rfl⟩ : ∃ (u w : Fin 1), i = ix2 u w := ⟨i 0, i 1, eq_ix2 i⟩
    have hN : n + 1 < 16 := lt_of_lt_of_eq hn N_0
    have h0 : ¬(⟨n + 1, hn⟩ : Fin cfg0.N).val % 16 = 0 := by dsimp only; omega
    by_cases h1 : (⟨n + 1, hn⟩ : Fin cfg0.N).val % 16 = 15
    · rw [outsAt0_C m c ⟨n + 1, hn⟩ h0 h1]
      dsimp only
      refine (congrFun (total_last (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) _ _ (iblk m c 0 ⟨n + 1, hn⟩) (iblk m c 1 ⟨n + 1, hn⟩) (iblk m c 2 ⟨n + 1, hn⟩) (outsAt0 m c n (Nat.lt_of_succ_lt hn)).2) (ix2 u w)).trans ?_
      rw [update_apply, total_after c n (Nat.lt_of_succ_lt hn) (ix2 u w), runSum]
      exact congrArg (_ + ·) (contribution_eq m c ⟨n + 1, hn⟩)
    · rw [outsAt0_B m c ⟨n + 1, hn⟩ h0 h1]
      dsimp only
      refine (congrFun (total_middle (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) _ _ (iblk m c 0 ⟨n + 1, hn⟩) (iblk m c 1 ⟨n + 1, hn⟩) (iblk m c 2 ⟨n + 1, hn⟩) (outsAt0 m c n (Nat.lt_of_succ_lt hn)).2) (ix2 u w)).trans ?_
      rw [update_apply, total_after c n (Nat.lt_of_succ_lt hn) (ix2 u w), runSum]
      exact congrArg (_ + ·) (contribution_eq m c ⟨n + 1, hn⟩)

/-- THE RESULT: at the last point the result cell receives the loss. -/
theorem result_at_last (c : Dev nD) (t : Fin cfg0.N) (ht : t.val % 16 = 15) (i : S1x1.Idx) :
    (outsAt0 m c t.val t.isLt).1 i = loss (arr0 m c) (arr1 m c) (arr2 m c) := by
  obtain ⟨u, w, rfl⟩ : ∃ (u w : Fin 1), i = ix2 u w := ⟨i 0, i 1, eq_ix2 i⟩
  obtain ⟨n, hn⟩ := t
  have hN : n < 16 := lt_of_lt_of_eq hn N_0
  obtain rfl : n = 15 := by dsimp only at ht; omega
  rw [outsAt0_C m c ⟨15, hn⟩ (by show ¬(15 % 16 = 0); decide) ht]
  dsimp only
  refine (congrFun (result_last (F := Ideal) c (grid0.coords ⟨15, hn⟩) (ms0_0 ⟨15, hn⟩) (hs0_0 ⟨15, hn⟩) (ms0_1 ⟨15, hn⟩) (hs0_1 ⟨15, hn⟩) (ms0_2 ⟨15, hn⟩) (hs0_2 ⟨15, hn⟩) (ms0_3 ⟨15, hn⟩) (hs0_3 ⟨15, hn⟩) scM0_0 (Memref.isWhole_whole _) _ _ (iblk m c 0 ⟨15, hn⟩) (iblk m c 1 ⟨15, hn⟩) (iblk m c 2 ⟨15, hn⟩) (outsAt0 m c 14 (Nat.lt_of_succ_lt hn)).2) (ix2 u w)).trans ?_
  rw [scale_apply, update_apply, total_after m c 14 (Nat.lt_of_succ_lt hn) (ix2 u w), contribution_eq]
  exact tiles_eq_loss (arr0 m c) (arr1 m c) (arr2 m c)

end Cert.KernelIdeal.Total

end
-- ==== Proof.KernelRun.lean ====
/-
  The kernel's run, read. The 1 × 1 result array is written back once, at the last grid point, with the loss
  (RunningTotal), and that one block is the whole array; after the region @main reshapes the 1 × 1 array to a scalar,
  which reads the same entry. So the program ends with its result at the loss of the arrays it was launched with, and
  those arrays unchanged.
-/
import proofs.«121912_j26482768347185_1_alg».proof.Proof.Gen.KernelIdeal.Frame
import proofs.«121912_j26482768347185_1_alg».proof.Proof.Spec
import proofs.«121912_j26482768347185_1_alg».proof.Proof.RunningTotal
import Idealize.ShloMosaic.Lib.ValueIdx
import Idealize.ShloMosaic.Lib.StableHlo.Run
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Loss

open Cert.KernelIdeal Cert.KernelIdeal.Gen Cert.RowHinge Idealize.ShloMosaic.ValueIdx
open Cert.KernelIdeal.Total

variable (m : (ℓ : Loc nD τ sig) → Buf (Elt Ideal) ℓ) (ρ : Dev nD → PrngReg)

/-- The loss of the arrays core `c` was launched with. -/
abbrev lossOf (c : Dev nD) : EReal := loss (arr0 m c) (arr1 m c) (arr2 m c)

/-- The 1 × 1 result array holding the loss. -/
abbrev resultArr (c : Dev nD) : Buf (Elt Ideal) ((c : Thread nD τ).loc main_v0) := fun _ => lossOf m c

/-- The scalar result holding the loss. -/
abbrev resultScalar (c : Dev nD) : Buf (Elt Ideal) ((c : Thread nD τ).loc main_v1) := fun _ => lossOf m c

/-- The one write-back, at the last point, writes the loss. -/
theorem flushed_eq (c : Dev nD) (t : Fin cfg0.N) (hf : (cfg0.win 3).flush t = true) :
    (dats m 0 c).flushed 3 t = ((cfg0.win 3).blk t).view.read (Elt Ideal) (resultArr m c) := by
  have ht : t.val % 16 = 15 := (flush0_3 t).mp hf
  show (cfg0.win 3).cut (grid0.coords t) ((dats m 0 c).after 3 t) = _
  rw [after0_3]
  funext y
  rw [View.read_apply]
  exact result_at_last m c t ht _

/-- The block written back at the last point is the whole 1 × 1 array, so the array ends holding the loss. -/
theorem final (c : Dev nD) : (dats m 0 c).arrAt 3 cfg0.N = resultArr m c :=
  (dats m 0 c).arrAt_eq_of_cover 3 (resultArr m c) (flushed_eq m c) fun i =>
    ⟨t0_15, (flush0_3 t0_15).mpr rfl, by
      show i ∈ ((View.whole main_v0).slice (win0_3.rect t0_15)).set
      rw [View.set_slice_whole, Rect.mem_set_unit]
      intro a
      have h0 : (i 0 : Nat) < 1 := (i 0).isLt
      have h1 : (i 1 : Nat) < 1 := (i 1).isLt
      match a with
      | ⟨0, _⟩ =>
        show win0_3.index t0_15 0 * win0_3.size 0 ≤ (i 0 : Nat)
          ∧ (i 0 : Nat) < win0_3.index t0_15 0 * win0_3.size 0 + win0_3.xsize (grid0.coords t0_15) 0
        rw [show win0_3.index t0_15 0 * win0_3.size 0 = 0 from by decide +kernel,
          show win0_3.xsize (grid0.coords t0_15) 0 = 1 from by decide +kernel]
        omega
      | ⟨1, _⟩ =>
        show win0_3.index t0_15 1 * win0_3.size 1 ≤ (i 1 : Nat)
          ∧ (i 1 : Nat) < win0_3.index t0_15 1 * win0_3.size 1 + win0_3.xsize (grid0.coords t0_15) 1
        rw [show win0_3.index t0_15 1 * win0_3.size 1 = 0 from by decide +kernel,
          show win0_3.xsize (grid0.coords t0_15) 1 = 1 from by decide +kernel]
        omega⟩

/-- The reshape of the 1 × 1 array to a scalar after the region reads the loss. -/
theorem tail_eq (c : Dev nD) :
    Pipeline.afterTail₀ cfgs (dats m) 0 (V0 m) [hostOps1] c main_v1 = resultScalar m c := by
  unfold Pipeline.afterTail₀
  show StableHlo.after hostOps1 _ (Proc.devRef .tc main_v1) = _
  after_results
  funext i
  have e : Pipeline.withArrays (cfgs 0).spec c (V0 m c) (fun w => (dats m 0 c).arrAt w (cfgs 0).N)
      (Proc.devRef .tc main_v0) = resultArr m c :=
    (Pipeline.withArrays_arr spec0 launch0.win.arr_inj c _ _ 3).trans (final m c)
  show shapeCast S_ (Pipeline.withArrays (cfgs 0).spec c (V0 m c) (fun w => (dats m 0 c).arrAt w (cfgs 0).N)
      (Proc.devRef .tc main_v0)) shapeCasts_S1x1_S_ i = _
  rw [e]
  rfl

/-- The scalar result is none of the region's arrays and is not scoped: the frame run leaves it as the tail does. -/
theorem result_mem : main_v1 ∈ Pipeline.restRefs sig (cfgs 0).spec :=
  Pipeline.mem_restRefs_of main_v1 rfl (fun w => by fin_cases w <;> decide)

/-- THE KERNEL'S RUN: every weakly fair execution terminates with the result at the loss of the launch arrays, and
    those arrays unchanged. -/
theorem run : θ_run defs (onTc (τ := τ) (main (F := Ideal))) ⟨m, fun _ => 0, ρ⟩ fun r => ∀ c : Dev nD,
      r.2.mem ((c.tc : Thread nD τ).loc main_v1) = resultScalar m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v1 result_mem).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.Loss

end
-- ==== Proof.lean ====
/-
  The certificate of a triplet hinge loss. For 4096 samples of 4096 features in three arrays `a₀`, `a₁`, `a₂`, with
  `d13 j` and `d12 j` the Euclidean distances of sample `j`'s row of `a₀` to its rows of `a₂` and `a₁`, both programs
  compute

      loss = 4096 · ∑ⱼ max 0 ((2 − d13 j) + d12 j).

  The kernel walks the samples in sixteen tiles of 256 rows, adding each tile's sum of hinge terms to a running total that
  starts at zero, and multiplies the total by 4096 once at the end. The reference lays the hinge terms along the columns
  of a 4096 × 4096 table, the same in every row, and sums the whole table. Over the extended reals the two agree: the
  tiles partition the samples (commutativity and associativity of the sum), and 4096 equal rows of sum `x` add up to
  `4096 · x` for every extended real `x`, infinite ones included, so the inputs' finiteness is never used
  (Proof/Spec.lean). Proof/Reference.lean reads the reference's operations one at a time down to the table's entry and
  its sum; Proof/Pieces.lean, TileValue.lean and RunningTotal.lean read what each grid point leaves in the running total
  and in the result, by induction over the points; Proof/KernelRun.lean reads the result array after its one write-back
  and the reshape that follows. The idealized kernel is the kernel's own text read at the ideal instance (no rewrite was
  applied), so `preserves` has nothing to state.
-/
import proofs.«121912_j26482768347185_1_alg».proof.Defs
import proofs.«121912_j26482768347185_1_alg».proof.Proof.Gen.Kernel
import proofs.«121912_j26482768347185_1_alg».proof.Proof.Gen.Kernel.Skeleton
import proofs.«121912_j26482768347185_1_alg».proof.Proof.Gen.Kernel.Launch
import proofs.«121912_j26482768347185_1_alg».proof.Proof.Gen.Kernel.Points
import proofs.«121912_j26482768347185_1_alg».proof.Proof.Gen.Kernel.Frame
import proofs.«121912_j26482768347185_1_alg».proof.Proof.Gen.KernelIdeal
import proofs.«121912_j26482768347185_1_alg».proof.Proof.Gen.KernelIdeal.Skeleton
import proofs.«121912_j26482768347185_1_alg».proof.Proof.Gen.KernelIdeal.Launch
import proofs.«121912_j26482768347185_1_alg».proof.Proof.Gen.KernelIdeal.Points
import proofs.«121912_j26482768347185_1_alg».proof.Proof.Gen.KernelIdeal.Frame
import proofs.«121912_j26482768347185_1_alg».proof.Proof.Gen.ReferenceIdeal
import proofs.«121912_j26482768347185_1_alg».proof.Proof.Gen.ReferenceIdeal.Run
import proofs.«121912_j26482768347185_1_alg».proof.Proof.Gen.ReferenceIdeal.Read
import proofs.«121912_j26482768347185_1_alg».proof.Proof.Gen.Pre_finite_inputs
import proofs.«121912_j26482768347185_1_alg».proof.Proof.Spec
import proofs.«121912_j26482768347185_1_alg».proof.Proof.Reference
import proofs.«121912_j26482768347185_1_alg».proof.Proof.KernelRun
import Idealize.ShloMosaic.Adequacy
import Idealize.ShloMosaic.Init

noncomputable section

namespace Cert.Proof

open Idealize.ShloMosaic Idealize.SL.Sem

/-- The kernel as printed runs, and its argument arrays end unchanged. -/
theorem frame_kernel : Cert.frame_Kernel := fun m ρ _ => Cert.Kernel.Gen.frame m ρ

/-- So does its reading at the ideal instance. -/
theorem frame_kernel_ideal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten for the ideal reading. -/
theorem preserves : Cert.preserves_Kernel_KernelIdeal := trivial

/-- From memories that agree on the three arrays, the kernel ends with its result at the loss of its arrays
    (KernelRun) and the reference with its result at the loss of its own (Reference): the same extended real. -/
theorem algebraic : Cert.algebraic_KernelIdeal_ReferenceIdeal := by
  intro m ρ m' ρ' _ hagree
  refine ⟨fun c => Cert.KernelIdeal.Loss.resultScalar m c, Cert.KernelIdeal.Loss.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v16_eq (F := Ideal) _ _ _).trans ?_
  rw [(hagree c).1, (hagree c).2.1, (hagree c).2.2]
  funext i
  exact Cert.ReferenceIdeal.Table.result_eq _ _ _ i

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
